-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000x120 : Shape := ⟨2, ![8000, 120]⟩
abbrev S120x8000 : Shape := ⟨2, ![120, 8000]⟩
abbrev S8000 : Shape := ⟨1, ![8000]⟩
abbrev S_ : Shape := ⟨0, ![]⟩

class Facts : Prop where
  bcast_S_S8000x120 : S_.BroadcastsInDim S8000x120 (![] : Fin 0 → Fin S8000x120.rank)
  reducesTo_S8000x120_S_d0_1 : S8000x120.ReducesTo [0, 1] S_
  h_S_ : 0 < S_.numel
  bcast_S_S120x8000 : S_.BroadcastsInDim S120x8000 (![] : Fin 0 → Fin S120x8000.rank)
  reducesTo_S120x8000_S_d0_1 : S120x8000.ReducesTo [0, 1] S_
  bcast_S_S8000 : S_.BroadcastsInDim S8000 (![] : Fin 0 → Fin S8000.rank)
  reducesTo_S8000_S_d0 : S8000.ReducesTo [0] S_

variable [Facts]

def fn {F : FTy → Type} [FloatOps F] (main_arg0 : FVec F S8000x120 .f32) (main_arg1 : FVec F S120x8000 .f32) (main_arg2 : FVec F S8000 .f32) : IVec S_ 1 :=
  let main_v0 : FVec F S8000x120 .f32 := Host.absf main_arg0
  let main_cst : FVec F S_ .f32 := constant S_ .f32 0x7F800000#32
  let main_v1 : FVec F S8000x120 .f32 := broadcastInDim S8000x120 ![] bcast_S_S8000x120 main_cst
  let main_v2 : IVec S8000x120 1 := cmpf .olt main_v0 main_v1
  let main_c : IVec S_ 1 := constantI S_ 1 1#1
  let main_v3 : IVec S_ 1 := (fun x v => Host.reduce IntOp.andi x v reducesTo_S8000x120_S_d0_1 h_S_) main_v2 main_c
  let main_v4 : FVec F S120x8000 .f32 := Host.absf main_arg1
  let main_cst_0 : FVec F S_ .f32 := constant S_ .f32 0x7F800000#32
  let main_v5 : FVec F S120x8000 .f32 := broadcastInDim S120x8000 ![] bcast_S_S120x8000 main_cst_0
  let main_v6 : IVec S120x8000 1 := cmpf .olt main_v4 main_v5
  let main_c_1 : IVec S_ 1 := constantI S_ 1 1#1
  let main_v7 : IVec S_ 1 := (fun x v => Host.reduce IntOp.andi x v reducesTo_S120x8000_S_d0_1 h_S_) main_v6 main_c_1
  let main_v8 : IVec S_ 1 := andi main_v3 main_v7
  let main_v9 : FVec F S8000 .f32 := Host.absf main_arg2
  let main_cst_2 : FVec F S_ .f32 := constant S_ .f32 0x7F800000#32
  let main_v10 : FVec F S8000 .f32 := broadcastInDim S8000 ![] bcast_S_S8000 main_cst_2
  let main_v11 : IVec S8000 1 := cmpf .olt main_v9 main_v10
  let main_c_3 : IVec S_ 1 := constantI S_ 1 1#1
  let main_v12 : IVec S_ 1 := (fun x v => Host.reduce IntOp.andi x v reducesTo_S8000_S_d0 h_S_) main_v11 main_c_3
  let main_v13 : IVec S_ 1 := andi main_v8 main_v12
  main_v13
-- ==== Kernel.lean ====
abbrev S8000x120 : Shape := ⟨2, ![8000, 120]⟩
abbrev S120x8000 : Shape := ⟨2, ![120, 8000]⟩
abbrev S8000 : Shape := ⟨1, ![8000]⟩
abbrev S_ : Shape := ⟨0, ![]⟩
abbrev S8064x128 : Shape := ⟨2, ![8064, 128]⟩
abbrev S128x8064 : Shape := ⟨2, ![128, 8064]⟩
abbrev S8064 : Shape := ⟨1, ![8064]⟩
abbrev S1x8064 : Shape := ⟨2, ![1, 8064]⟩
abbrev S8064x8064 : Shape := ⟨2, ![8064, 8064]⟩
abbrev S2016x128 : Shape := ⟨2, ![2016, 128]⟩
abbrev S128x1152 : Shape := ⟨2, ![128, 1152]⟩
abbrev S1x1152 : Shape := ⟨2, ![1, 1152]⟩
abbrev S2016x1152 : Shape := ⟨2, ![2016, 1152]⟩
abbrev S8064x8000 : Shape := ⟨2, ![8064, 8000]⟩

abbrev nBuf : Space → Nat
  | .hbm => 17
  | .vmem => 8
  | .smem => 0
  | _ => 0

abbrev bufTy : (tb : Table) → Fin (tcTables nBuf tb) → BufTy
  | .hbm, ⟨0, _⟩ => ⟨S8000x120, .f32⟩
  | .hbm, ⟨1, _⟩ => ⟨S120x8000, .f32⟩
  | .hbm, ⟨2, _⟩ => ⟨S8000, .f32⟩
  | .hbm, ⟨3, _⟩ => ⟨S_, .i32⟩
  | .hbm, ⟨4, _⟩ => ⟨S_, .f32⟩
  | .hbm, ⟨5, _⟩ => ⟨S8064x128, .f32⟩
  | .hbm, ⟨6, _⟩ => ⟨S8064x128, .bf16⟩
  | .hbm, ⟨7, _⟩ => ⟨S_, .i32⟩
  | .hbm, ⟨8, _⟩ => ⟨S_, .f32⟩
  | .hbm, ⟨9, _⟩ => ⟨S128x8064, .f32⟩
  | .hbm, ⟨10, _⟩ => ⟨S128x8064, .bf16⟩
  | .hbm, ⟨11, _⟩ => ⟨S_, .i32⟩
  | .hbm, ⟨12, _⟩ => ⟨S_, .f32⟩
  | .hbm, ⟨13, _⟩ => ⟨S8064, .f32⟩
  | .hbm, ⟨14, _⟩ => ⟨S1x8064, .f32⟩
  | .hbm, ⟨15, _⟩ => ⟨S8064x8064, .f32⟩
  | .hbm, ⟨16, _⟩ => ⟨S8064x8000, .f32⟩
  | .local _ .vmem, ⟨0, _⟩ => ⟨S2016x128, .bf16⟩
  | .local _ .vmem, ⟨1, _⟩ => ⟨S2016x128, .bf16⟩
  | .local _ .vmem, ⟨2, _⟩ => ⟨S128x1152, .bf16⟩
  | .local _ .vmem, ⟨3, _⟩ => ⟨S128x1152, .bf16⟩
  | .local _ .vmem, ⟨4, _⟩ => ⟨S1x1152, .f32⟩
  | .local _ .vmem, ⟨5, _⟩ => ⟨S1x1152, .f32⟩
  | .local _ .vmem, ⟨6, _⟩ => ⟨S2016x1152, .f32⟩
  | .local _ .vmem, ⟨7, _⟩ => ⟨S2016x1152, .f32⟩
  | _, _ => ⟨S8000x120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call2_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2016x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2016x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S8000x120_S8064x128_0640_080 : S8000x120.Pads (![0, 0] : Fin 2 → Nat) ![64, 8] ![0, 0] S8064x128
  h_S_ : 0 < S_.numel
  bitsLt_bf16_f32 : FTy.bits .bf16 < FTy.bits .f32
  pads_S120x8000_S128x8064_080_0640 : S120x8000.Pads (![0, 0] : Fin 2 → Nat) ![8, 64] ![0, 0] S128x8064
  pads_S8000_S8064_0640 : S8000.Pads (![0] : Fin 1 → Nat) ![64] ![0] S8064
  shapeCasts_S8064_S1x8064 : S8064.ShapeCasts S1x8064
  inb_S2016x128_S2016x128_0_0 : ∀ a, (![0, 0] : Fin 2 → Nat) a + S2016x128.size a ≤ S2016x128.size a
  h_S2016x128 : 0 < S2016x128.numel
  shapeCasts_S2016x128_S2016x128 : S2016x128.ShapeCasts S2016x128
  inb_S128x1152_S128x1152_0_0 : ∀ a, (![0, 0] : Fin 2 → Nat) a + S128x1152.size a ≤ S128x1152.size a
  h_S128x1152 : 0 < S128x1152.numel
  shapeCasts_S128x1152_S128x1152 : S128x1152.ShapeCasts S128x1152
  inb_S1x1152_S1x1152_0_0 : ∀ a, (![0, 0] : Fin 2 → Nat) a + S1x1152.size a ≤ S1x1152.size a
  h_S1x1152 : 0 < S1x1152.numel
  shapeCasts_S1x1152_S1x1152 : S1x1152.ShapeCasts S1x1152
  broadcasts_S1x1152_S2016x1152 : S1x1152.Broadcasts S2016x1152
  inb_S2016x1152_S2016x1152_0_0 : ∀ a, (![0, 0] : Fin 2 → Nat) a + S2016x1152.size a ≤ S2016x1152.size a
  h_S2016x1152 : 0 < S2016x1152.numel
  slices_S8064x8064_S8064x8000_0_0 : S8064x8064.Slices ![0, 0] S8064x8000
  dot_S2016x128_S128x1152_S2016x1152_1_0_0_1_n_n_wf : DotDims.WF S2016x128 S128x1152 S2016x1152 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2016x128.size a ≤ S8064x128.size a
  hwx0_0 : ∀ i : grid0.Coords, EltTy.bits .bf16 = 32 ∨ (Rect.block (s := S8064x128) S2016x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1152.size a ≤ S128x8064.size a
  hwx0_1 : ∀ i : grid0.Coords, EltTy.bits .bf16 = 32 ∨ (Rect.block (s := S128x8064) S128x1152.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1152.size a ≤ S1x8064.size a
  hwx0_2 : ∀ i : grid0.Coords, EltTy.bits .f32 = 32 ∨ (Rect.block (s := S1x8064) S1x1152.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2016x1152.size a ≤ S8064x8064.size a
  hwx0_3 : ∀ i : grid0.Coords, EltTy.bits .f32 = 32 ∨ (Rect.block (s := S8064x8064) S2016x1152.size (cc0_transform_3 i) (hinb0_3 i)).WholeWords (EltTy.packing .f32)

variable [Facts₀]

def dot_S2016x128_S128x1152_S2016x1152_1_0_0_1_n_n : DotDims S2016x128 S128x1152 S2016x1152 where
  lhsContracting := [1]
  rhsContracting := [0]
  lhsNonContracting := [0]
  rhsNonContracting := [1]
  lhsBatch := []
  rhsBatch := []
  wf := dot_S2016x128_S128x1152_S2016x1152_1_0_0_1_n_n_wf

abbrev win0_0 : Pipeline.Window sig grid0 :=
  Pipeline.Window.ofSpec (Memref.whole main_v1) S2016x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x1152.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1152.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2016x1152.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8000x120 : Shape := ⟨2, ![8000, 120]⟩
abbrev S120x8000 : Shape := ⟨2, ![120, 8000]⟩
abbrev S8000 : Shape := ⟨1, ![8000]⟩
abbrev S_ : Shape := ⟨0, ![]⟩
abbrev S8064x128 : Shape := ⟨2, ![8064, 128]⟩
abbrev S128x8064 : Shape := ⟨2, ![128, 8064]⟩
abbrev S8064x8064 : Shape := ⟨2, ![8064, 8064]⟩
abbrev S1 : Shape := ⟨1, ![1]⟩
abbrev S8064x8000 : Shape := ⟨2, ![8064, 8000]⟩

abbrev nBuf : Space → Nat
  | .hbm => 15
  | .vmem => 0
  | .smem => 0
  | _ => 0

abbrev bufTy : (tb : Table) → Fin (tcTables nBuf tb) → BufTy
  | .hbm, ⟨0, _⟩ => ⟨S8000x120, .f32⟩
  | .hbm, ⟨1, _⟩ => ⟨S120x8000, .f32⟩
  | .hbm, ⟨2, _⟩ => ⟨S8000, .f32⟩
  | .hbm, ⟨3, _⟩ => ⟨S_, .i32⟩
  | .hbm, ⟨4, _⟩ => ⟨S_, .f32⟩
  | .hbm, ⟨5, _⟩ => ⟨S8064x128, .f32⟩
  | .hbm, ⟨6, _⟩ => ⟨S_, .i32⟩
  | .hbm, ⟨7, _⟩ => ⟨S_, .f32⟩
  | .hbm, ⟨8, _⟩ => ⟨S128x8064, .f32⟩
  | .hbm, ⟨9, _⟩ => ⟨S8064x8064, .f32⟩
  | .hbm, ⟨10, _⟩ => ⟨S_, .i32⟩
  | .hbm, ⟨11, _⟩ => ⟨S1, .i32⟩
  | .hbm, ⟨12, _⟩ => ⟨S8064x8000, .f32⟩
  | .hbm, ⟨13, _⟩ => ⟨S8064x8064, .f32⟩
  | .hbm, ⟨14, _⟩ => ⟨S8064x8000, .f32⟩
  | _, _ => ⟨S8000x120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩

abbrev nD : Nat := 1
abbrev τ : Topo := Topo.v7x

variable {F : FTy → Type} [FloatOps F]

class Facts₀ : Prop where
  pads_S8000x120_S8064x128_0640_080 : S8000x120.Pads (![0, 0] : Fin 2 → Nat) ![64, 8] ![0, 0] S8064x128
  h_S_ : 0 < S_.numel
  pads_S120x8000_S128x8064_080_0640 : S120x8000.Pads (![0, 0] : Fin 2 → Nat) ![8, 64] ![0, 0] S128x8064
  bcast_S_S1 : S_.BroadcastsInDim S1 (![] : Fin 0 → Fin S1.rank)
  bcast_S8000_S8064x8000_1 : S8000.BroadcastsInDim S8064x8000 (![1] : Fin 1 → Fin S8064x8000.rank)
  slices_S8064x8064_S8064x8000_0_0 : S8064x8064.Slices ![0, 0] S8064x8000
  dot_S8064x128_S128x8064_S8064x8064_1_0_0_1_n_n_wf : DotDims.WF S8064x128 S128x8064 S8064x8064 [1] [0] [0] [1] [] []
  scatter_S8064x8064_S1_S8064x8000_01_n_1_0_wf : ScatterDims.WF S8064x8064 S1 S8064x8000 [0, 1] [] [1] 0

variable [Facts₀]

def dot_S8064x128_S128x8064_S8064x8064_1_0_0_1_n_n : DotDims S8064x128 S128x8064 S8064x8064 where
  lhsContracting := [1]
  rhsContracting := [0]
  lhsNonContracting := [0]
  rhsNonContracting := [1]
  lhsBatch := []
  rhsBatch := []
  wf := dot_S8064x128_S128x8064_S8064x8064_1_0_0_1_n_n_wf
def scatter_S8064x8064_S1_S8064x8000_01_n_1_0 : ScatterDims S8064x8064 S1 S8064x8000 where
  updateWindowDims := [0, 1]
  insertedWindowDims := []
  scatterDimsToOperandDims := [1]
  indexVectorDim := 0
  wf := scatter_S8064x8064_S1_S8064x8000_01_n_1_0_wf

class Facts : Prop extends Facts₀ where

variable [Facts]
-- ==== Proof.KernelPayload.lean ====
/-
  What the kernel body stores, index by index, over the extended reals.

  At a grid point the body loads a 2016 × 128 block of the left operand, a 128 × 1152 block of the right operand and a
  1 × 1152 block of the bias row, multiplies the two blocks into a zero accumulator and adds the bias row to every row of
  the product.  Entry (p, q) of what it stores is therefore the sum over the 128 contraction indices k of
  left (p, k) · right (k, q), plus bias (0, q).
-/
import proofs.«100603_j60842506715778_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.TcCoe Idealize.ShloMosaic.ValueIdx

/-! ## The block product's operand indices -/

theorem lhs_blk_0 (i : S2016x1152.Idx) (q : dot_S2016x128_S128x1152_S2016x1152_1_0_0_1_n_n.contr.Idx) :
    (dot_S2016x128_S128x1152_S2016x1152_1_0_0_1_n_n.lhsIdx i q 0).val = (i 0).val := by
  unfold DotDims.lhsIdx
  rw [dif_neg (show ¬(0 : Fin S2016x128.rank) ∈ dot_S2016x128_S128x1152_S2016x1152_1_0_0_1_n_n.lhsBatch by decide), dif_pos (show (0 : Fin S2016x128.rank) ∈ dot_S2016x128_S128x1152_S2016x1152_1_0_0_1_n_n.lhsNonContracting by decide)]
  rfl
theorem lhs_blk_1 (i : S2016x1152.Idx) (q : dot_S2016x128_S128x1152_S2016x1152_1_0_0_1_n_n.contr.Idx) :
    (dot_S2016x128_S128x1152_S2016x1152_1_0_0_1_n_n.lhsIdx i q 1).val = (q ⟨0, by decide⟩).val :=
  dot_S2016x128_S128x1152_S2016x1152_1_0_0_1_n_n.lhsIdx_val_of_single rfl i q
theorem rhs_blk_0 (i : S2016x1152.Idx) (q : dot_S2016x128_S128x1152_S2016x1152_1_0_0_1_n_n.contr.Idx) :
    (dot_S2016x128_S128x1152_S2016x1152_1_0_0_1_n_n.rhsIdx i q 0).val = (q ⟨0, by decide⟩).val :=
  dot_S2016x128_S128x1152_S2016x1152_1_0_0_1_n_n.rhsIdx_val_of_single rfl i q
theorem rhs_blk_1 (i : S2016x1152.Idx) (q : dot_S2016x128_S128x1152_S2016x1152_1_0_0_1_n_n.contr.Idx) :
    (dot_S2016x128_S128x1152_S2016x1152_1_0_0_1_n_n.rhsIdx i q 1).val = (i 1).val := by
  unfold DotDims.rhsIdx
  rw [dif_neg (show ¬(1 : Fin S128x1152.rank) ∈ dot_S2016x128_S128x1152_S2016x1152_1_0_0_1_n_n.rhsBatch by decide), dif_pos (show (1 : Fin S128x1152.rank) ∈ dot_S2016x128_S128x1152_S2016x1152_1_0_0_1_n_n.rhsNonContracting by decide)]
  rfl

/-- The block product into the zero accumulator, at entry `i`: the sum over the 128 contraction indices. -/
theorem blockProduct_apply (x0 : FVec Ideal S2016x128 .bf16) (x1 : FVec Ideal S128x1152 .bf16) (i : S2016x1152.Idx) :
    matmul dot_S2016x128_S128x1152_S2016x1152_1_0_0_1_n_n none x0 x1 (constant (F := Ideal) S2016x1152 .f32 0x00000000#32) i
      = ∑ k : Fin 128, x0 (ix2 (i 0) k) * x1 (ix2 k (i 1)) := by
  simp only [matmul]
  rw [Ideal.matmul_constant_zero_apply, ← Equiv.sum_comp (ValueIdx.contrEquiv1 dot_S2016x128_S128x1152_S2016x1152_1_0_0_1_n_n 128 rfl rfl).symm]
  refine Finset.sum_congr rfl fun k _ => ?_
  have hk := ValueIdx.contrEquiv1_symm_val dot_S2016x128_S128x1152_S2016x1152_1_0_0_1_n_n 128 rfl rfl k
  have el : dot_S2016x128_S128x1152_S2016x1152_1_0_0_1_n_n.lhsIdx i ((ValueIdx.contrEquiv1 dot_S2016x128_S128x1152_S2016x1152_1_0_0_1_n_n 128 rfl rfl).symm k) = ix2 (i 0) k := funext fun a => Fin.ext (by
    match a with
    | ⟨0, _⟩ => exact lhs_blk_0 _ _
    | ⟨1, _⟩ => exact (lhs_blk_1 _ _).trans hk)
  have er : dot_S2016x128_S128x1152_S2016x1152_1_0_0_1_n_n.rhsIdx i ((ValueIdx.contrEquiv1 dot_S2016x128_S128x1152_S2016x1152_1_0_0_1_n_n 128 rfl rfl).symm k) = ix2 k (i 1) := funext fun a => Fin.ext (by
    match a with
    | ⟨0, _⟩ => exact (rhs_blk_0 _ _).trans hk
    | ⟨1, _⟩ => exact rhs_blk_1 _ _)
  rw [el, er]
  rfl

/-- The bias row broadcast down the 2016 rows, at entry `i`: the row's entry in `i`'s column. -/
theorem biasRows_apply (x2 : FVec Ideal S1x1152 .f32) (i : S2016x1152.Idx) :
    broadcastTo S2016x1152 x2 broadcasts_S1x1152_S2016x1152 i = x2 (ix2 (0 : Fin 1) (i 1)) :=
  broadcastTo_apply x2 broadcasts_S1x1152_S2016x1152 i (ix2 (0 : Fin 1) (i 1)) (fun a => by
    match a with
    | ⟨0, _⟩ => show (0 : Nat) = if (1 : Nat) = 1 then 0 else _; rw [if_pos rfl]
    | ⟨1, _⟩ => show (i 1).val = if (1152 : Nat) = 1 then 0 else (i 1).val; rw [if_neg (by decide)])

/-- What the body stores, at entry `i` of the 2016 × 1152 block. -/
theorem stored_apply (x0 : Vec Ideal S2016x128 .bf16) (x1 : Vec Ideal S128x1152 .bf16) (x2 : Vec Ideal S1x1152 .f32) (i : S2016x1152.Idx) :
    k0_pay1 (F := Ideal) x0 x1 x2 i = (∑ k : Fin 128, x0 (ix2 (i 0) k) * x1 (ix2 k (i 1))) + x2 (ix2 (0 : Fin 1) (i 1)) := by
  unfold k0_pay1
  simp only [shapeCast_self]
  show matmul dot_S2016x128_S128x1152_S2016x1152_1_0_0_1_n_n none x0 x1 (constant (F := Ideal) S2016x1152 .f32 0x00000000#32) i
      + broadcastTo S2016x1152 x2 broadcasts_S1x1152_S2016x1152 i = _
  rw [blockProduct_apply, biasRows_apply]

end Cert.KernelIdeal.Payload

end
-- ==== Proof.KernelArray.lean ====
/-
  The kernel's output array after the run, and the program's result.

  The 4 × 7 grid's output blocks, 2016 × 1152 each, tile the 8064 × 8064 output array; the block at grid point (r, s) is
  computed from row block r of the first array, column block s of the second and column block s of the bias row.  Entry
  (p, q) of an output block is the contraction of row p of the left block with column q of the right block plus the bias
  row's entry q, which at array coordinates is the one whole-array function `product` below.  After the region the host
  keeps the first 8000 columns.
-/
import proofs.«100603_j60842506715778_1_alg».proof.Proof.Gen.KernelIdeal.Frame
import proofs.«100603_j60842506715778_1_alg».proof.Proof.KernelPayload
import Idealize.ShloMosaic.Lib.Pipeline.Value
import Idealize.ShloMosaic.Lib.StableHlo.Run

set_option maxRecDepth 16384

noncomputable section

namespace Cert.KernelIdeal.Array

open Cert.KernelIdeal Cert.KernelIdeal.Gen Idealize.ShloMosaic Idealize.ShloMosaic.TcCoe Idealize.SL.Sem Idealize.ShloMosaic.StableHlo
open Idealize.ShloMosaic.ValueIdx
open Idealize.ShloMosaic.Pipeline (Dat Cfg Window)

variable (m : (ℓ : Loc nD τ sig) → Buf (Elt Ideal) ℓ) (ρ : Dev nD → PrngReg)

/-- The whole output array as one function of the region's three arrays: entry (r, c) is the contraction of row r of the
    first with column c of the second, plus entry c of the bias row. -/
def product (a : Vec Ideal S8064x128 .bf16) (b : Vec Ideal S128x8064 .bf16) (v : Vec Ideal S1x8064 .f32) : Vec Ideal S8064x8064 .f32 :=
  fun i => (∑ k : Fin 128, a (ix2 (i 0) k) * b (ix2 k (i 1))) + v (ix2 (0 : Fin 1) (i 1))

/-- The region's three arrays, at their literal types. -/
abbrev leftArr (c : Dev nD) : Vec Ideal S8064x128 .bf16 := V m c main_v1
abbrev rightArr (c : Dev nD) : Vec Ideal S128x8064 .bf16 := V m c main_v3
abbrev biasRow (c : Dev nD) : Vec Ideal S1x8064 .f32 := V m c main_v5

theorem origin : (![0, 0] : Fin 2 → Nat) = fun _ => 0 := funext fun a => by fin_cases a <;> rfl

/-- The printed index maps over the grid: the first array's row block is the output's, the second array's and the bias
    row's column block is the output's, the other block indices are 0; the output's block indices stay in range. -/
theorem index_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) ≤ 3 ∧ win0_3.index t (1 : Fin 2) ≤ 6 :=
  (by decide +kernel : ∀ t : Fin grid0.N, _)

/-- Every output block is some grid point's. -/
theorem index_onto : ∀ (q0 : Fin 4) (q1 : Fin 7), ∃ t : Fin cfg0.N, win0_3.index t = ![q0.val, q1.val] :=
  (by decide +kernel : ∀ (q0 : Fin 4) (q1 : Fin 7), ∃ t : Fin grid0.N, win0_3.index t = ![q0.val, q1.val])

/-- What grid point `t` writes back is block `t` of `product` of the region's arrays. -/
theorem flushed_eq (c : Dev nD) (t : Fin cfg0.N) :
    (dats m 0 c).flushed 3 t = ((cfg0.win 3).blk t).view.read (Elt Ideal) (product (V m c main_v1) (V m c main_v3) (V m c main_v5)) := by
  show (cfg0.win 3).cut (grid0.coords t) ((dats m 0 c).after 3 t) = _
  rw [after0_3]
  unfold out0_3
  rw [View.canon_unit_zero origin]
  simp only [View.ld_unit_zero (S := S2016x128) origin, View.ld_unit_zero (S := S128x1152) origin, View.ld_unit_zero (S := S1x1152) origin]
  obtain ⟨e0, e1, e2, e3, e4, e5, e6, e7⟩ := index_facts t
  funext j
  obtain ⟨p, q, rfl⟩ : ∃ (p : Fin 2016) (q : Fin 1152), j = ix2 p q := ⟨j 0, j 1, eq_ix2 j⟩
  refine (Payload.stored_apply (iblk m c 0 t) (iblk m c 1 t) (iblk m c 2 t) (ix2 p q)).trans ?_
  show (∑ k : Fin 128, leftArr m c (((cfg0.win 0).blk t).view.emb (ix2 p k)) * rightArr m c (((cfg0.win 1).blk t).view.emb (ix2 k q)))
        + biasRow m c (((cfg0.win 2).blk t).view.emb (ix2 (0 : Fin 1) q))
      = (∑ k : Fin 128, leftArr m c (ix2 ((((cfg0.win 3).blk t).view.emb (ix2 p q)) 0) k) * rightArr m c (ix2 k ((((cfg0.win 3).blk t).view.emb (ix2 p q)) 1)))
        + biasRow m c (ix2 (0 : Fin 1) ((((cfg0.win 3).blk t).view.emb (ix2 p q)) 1))
  have h0 : ∀ k : Fin 128, ((cfg0.win 0).blk t).view.emb (ix2 p k) = ix2 ((((cfg0.win 3).blk t).view.emb (ix2 p q)) 0) k := fun k => by
    funext a; apply Fin.ext
    match a with
    | ⟨0, _⟩ => show win0_0.index t (0 : Fin 2) * 2016 + 1 * p.val = win0_3.index t (0 : Fin 2) * 2016 + 1 * p.val; omega
    | ⟨1, _⟩ => show win0_0.index t (1 : Fin 2) * 128 + 1 * k.val = k.val; omega
  have h1 : ∀ k : Fin 128, ((cfg0.win 1).blk t).view.emb (ix2 k q) = ix2 k ((((cfg0.win 3).blk t).view.emb (ix2 p q)) 1) := fun k => by
    funext a; apply Fin.ext
    match a with
    | ⟨0, _⟩ => show win0_1.index t (0 : Fin 2) * 128 + 1 * k.val = k.val; omega
    | ⟨1, _⟩ => show win0_1.index t (1 : Fin 2) * 1152 + 1 * q.val = win0_3.index t (1 : Fin 2) * 1152 + 1 * q.val; omega
  have h2 : ((cfg0.win 2).blk t).view.emb (ix2 (0 : Fin 1) q) = ix2 (0 : Fin 1) ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 1152 + 1 * q.val = win0_3.index t (1 : Fin 2) * 1152 + 1 * q.val; omega
  rw [h2]
  exact congrArg (· + _) (Finset.sum_congr rfl fun k _ => by rw [h0 k, h1 k]; rfl)

/-- An index of the output array is in point `t`'s block iff each coordinate is in the block's range on its axis. -/
theorem mem_block (t : Fin cfg0.N) (i : S8064x8064.Idx) :
    i ∈ ((cfg0.win 3).blk t).view.set ↔ ∀ a : Fin 2, win0_3.index t a * S2016x1152.size a ≤ (i a).val ∧ (i a).val < win0_3.index t a * S2016x1152.size a + S2016x1152.size a := by
  show i ∈ ((View.whole main_v6).slice (win0_3.rect t)).set ↔ _
  rw [View.set_slice_whole, Rect.mem_set_unit]
  exact Iff.rfl

/-- The output blocks tile the array: entry (r, c) is in the block of the point with block indices (r / 2016, c / 1152). -/
theorem covered (i : S8064x8064.Idx) : ∃ t : Fin cfg0.N, (cfg0.win 3).flush t = true ∧ i ∈ ((cfg0.win 3).blk t).view.set := by
  have hi0 : (i 0).val < 8064 := (i 0).isLt
  have hi1 : (i 1).val < 8064 := (i 1).isLt
  obtain ⟨t, ht⟩ := index_onto ⟨(i 0).val / 2016, by omega⟩ ⟨(i 1).val / 1152, by omega⟩
  have q0 : win0_3.index t (0 : Fin 2) = (i 0).val / 2016 := congrFun ht 0
  have q1 : win0_3.index t (1 : Fin 2) = (i 1).val / 1152 := congrFun ht 1
  refine ⟨t, flush0_3 t, ?_⟩
  rw [mem_block]
  intro a
  match a with
  | ⟨0, _⟩ => show win0_3.index t (0 : Fin 2) * 2016 ≤ (i 0).val ∧ (i 0).val < win0_3.index t (0 : Fin 2) * 2016 + 2016; omega
  | ⟨1, _⟩ => show win0_3.index t (1 : Fin 2) * 1152 ≤ (i 1).val ∧ (i 1).val < win0_3.index t (1 : Fin 2) * 1152 + 1152; omega

/-- The output array after the run is `product` of the region's arrays. -/
theorem final (c : Dev nD) : (dats m 0 c).arrAt 3 cfg0.N = product (V m c main_v1) (V m c main_v3) (V m c main_v5) :=
  (dats m 0 c).arrAt_eq_of_cover 3 (product (V m c main_v1) (V m c main_v3) (V m c main_v5)) (fun t _ => flushed_eq m c t) covered

/-- The program's result: the first 8000 columns of the output array. -/
theorem result_eq (c : Dev nD) :
    Pipeline.afterTail₀ cfgs (dats m) 0 (V0 m) [hostOps1] c main_v7
      = extractStridedSlice S8064x8000 ![0, 0] (product (V m c main_v1) (V m c main_v3) (V m c main_v5)) slices_S8064x8064_S8064x8000_0_0 := by
  unfold Pipeline.afterTail₀
  show StableHlo.after hostOps1 _ (Proc.devRef .tc main_v7) = _
  after_results
  exact congrArg (fun x => extractStridedSlice S8064x8000 ![0, 0] x slices_S8064x8064_S8064x8000_0_0)
    ((Pipeline.withArrays_arr spec0 launch0.win.arr_inj c (V0 m c) (fun w => (dats m 0 c).arrAt w cfg0.N) 3).trans (final m c))

/-- Every weakly fair execution of the program terminates with its result at the first 8000 columns of `product` of the
    region's arrays, the arguments unchanged. -/
theorem run : θ_run defs (onTc (τ := τ) (main (F := Ideal))) ⟨m, fun _ => 0, ρ⟩ fun r => ∀ c : Dev nD,
      r.2.mem ((c.tc : Thread nD τ).loc main_v7)
        = extractStridedSlice S8064x8000 ![0, 0] (product (V m c main_v1) (V m c main_v3) (V m c main_v5)) slices_S8064x8064_S8064x8000_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v7 (Pipeline.mem_restRefs_of main_v7 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Array

end
-- ==== Proof.KernelEntry.lean ====
/-
  The three arrays the kernel region is launched on, as functions of the program's arguments.

  Before the region the host pads the left operand with zeros to 8064 × 128 and narrows it, pads the right operand with
  zeros to 128 × 8064 and narrows it, and pads the bias with zeros to 8064 entries and lays it out as one row.
-/
import proofs.«100603_j60842506715778_1_alg».proof.Proof.Gen.KernelIdeal.Frame
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The left operand, zero-padded to 8064 × 128. -/
abbrev paddedLeft (c : Dev nD) : FVec F S8064x128 .f32 :=
  pad S8064x128 ![0, 0] ![64, 8] ![0, 0] (m ((c : Thread nD τ).loc main_arg0)) (sitofp .f32 (constantI S_ 32 0#32)) pads_S8000x120_S8064x128_0640_080 h_S_
/-- The right operand, zero-padded to 128 × 8064. -/
abbrev paddedRight (c : Dev nD) : FVec F S128x8064 .f32 :=
  pad S128x8064 ![0, 0] ![8, 64] ![0, 0] (m ((c : Thread nD τ).loc main_arg1)) (sitofp .f32 (constantI S_ 32 0#32)) pads_S120x8000_S128x8064_080_0640 h_S_
/-- The bias, zero-padded to 8064 entries. -/
abbrev paddedBias (c : Dev nD) : FVec F S8064 .f32 :=
  pad S8064 ![0] ![64] ![0] (m ((c : Thread nD τ).loc main_arg2)) (sitofp .f32 (constantI S_ 32 0#32)) pads_S8000_S8064_0640 h_S_

/-- The region's first array: the padded left operand, narrowed. -/
theorem V_main_v1 (c : Dev nD) : (V m c main_v1 : Vec F S8064x128 .bf16) = truncf .bf16 (paddedLeft m c) bitsLt_bf16_f32 := by
  dsimp only [V, V0]
  simp only [hostOps0, hostOps0_1, hostOps0_2, hostOps0_3, hostOps0_4, hostOps0_5, hostOps0_6, List.flatten_cons, List.flatten_nil, List.append_nil, List.cons_append,
    List.nil_append]
  after_results
  rfl

/-- The region's second array: the padded right operand, narrowed. -/
theorem V_main_v3 (c : Dev nD) : (V m c main_v3 : Vec F S128x8064 .bf16) = truncf .bf16 (paddedRight m c) bitsLt_bf16_f32 := by
  dsimp only [V, V0]
  simp only [hostOps0, hostOps0_1, hostOps0_2, hostOps0_3, hostOps0_4, hostOps0_5, hostOps0_6, List.flatten_cons, List.flatten_nil, List.append_nil, List.cons_append,
    List.nil_append]
  after_results
  rfl

/-- The region's third array: the padded bias as one row. -/
theorem V_main_v5 (c : Dev nD) : (V m c main_v5 : Vec F S1x8064 .f32) = shapeCast S1x8064 (paddedBias m c) shapeCasts_S8064_S1x8064 := by
  dsimp only [V, V0]
  simp only [hostOps0, hostOps0_1, hostOps0_2, hostOps0_3, hostOps0_4, hostOps0_5, hostOps0_6, List.flatten_cons, List.flatten_nil, List.append_nil, List.cons_append,
    List.nil_append]
  after_results
  rfl

end Cert.KernelIdeal.Entry

end
-- ==== Proof.Spec.lean ====
/-
  The function both programs compute, over the extended reals.

  With `Ap` the left operand zero-padded to 8064 × 128, `Bp` the right operand zero-padded to 128 × 8064 and `bias` the
  8000 bias entries, entry (r, c) of the 8064 × 8000 result is

      ∑ k < 128, Ap (r, k) · Bp (k, c)  +  bias c.

  The padded operands stay as they are: both programs build them by the same host `pad`, so their entries are never read.
-/
import Idealize.ShloMosaic.PureOps.Ideal
import Idealize.ShloMosaic.Lib.ValueIdx

noncomputable section

namespace Cert.GemmBias

open Idealize.ShloMosaic Idealize.ShloMosaic.ValueIdx

/-- Column `c` of the 8000 kept columns, as a column of the padded 8064. -/
abbrev widen (c : Fin 8000) : Fin 8064 := ⟨c.val, by have := c.isLt; omega⟩

/-- The padded product plus the bias, at the rows of the padded left operand and the first 8000 columns. -/
def gemmBias (Ap : (⟨2, ![8064, 128]⟩ : Shape).Idx → EReal) (Bp : (⟨2, ![128, 8064]⟩ : Shape).Idx → EReal)
    (bias : (⟨1, ![8000]⟩ : Shape).Idx → EReal) : (⟨2, ![8064, 8000]⟩ : Shape).Idx → EReal :=
  fun i => (∑ k : Fin 128, Ap (ix2 (i 0) k) * Bp (ix2 k (widen (i 1)))) + bias (ix1 (i 1))

end Cert.GemmBias

end
-- ==== Proof.KernelValue.lean ====
/-
  The kernel program's result is the padded product plus the bias.

  The region's arrays are the zero-padded operands narrowed, which over the extended reals changes nothing, and the
  zero-padded bias laid out as one row.  A kept column c < 8000 of that row is inside the bias, so it holds bias c; the
  padding columns 8000 … 8063 are cut off by the host's final slice.
-/
import proofs.«100603_j60842506715778_1_alg».proof.Proof.KernelArray
import proofs.«100603_j60842506715778_1_alg».proof.Proof.KernelEntry
import proofs.«100603_j60842506715778_1_alg».proof.Proof.Spec
import Idealize.ShloMosaic.Lib.KernelVsHost
import Idealize.ShloMosaic.Lib.Pipeline.Value

noncomputable section

namespace Cert.KernelIdeal.KernelValue

open Cert.KernelIdeal Cert.KernelIdeal.Gen Idealize.ShloMosaic Idealize.ShloMosaic.TcCoe Idealize.SL.Sem
open Idealize.ShloMosaic.ValueIdx Cert.GemmBias Cert.KernelIdeal.Array Cert.KernelIdeal.Entry

variable (m : (ℓ : Loc nD τ sig) → Buf (Elt Ideal) ℓ) (ρ : Dev nD → PrngReg)

/-- A kept column of the padded bias row is the bias's entry: the row is the padded vector in row-major order, and the
    column is below the bias's 8000 entries. -/
theorem biasRow_kept (bias : Vec Ideal S8000 .f32) (z : Vec Ideal S_ .f32) (s : Fin 8000) :
    shapeCast S1x8064 (pad S8064 ![0] ![64] ![0] bias z pads_S8000_S8064_0640 h_S_) shapeCasts_S8064_S1x8064 (ix2 (0 : Fin 1) (widen s))
      = bias (ix1 s) := by
  rw [shapeCast_apply _ shapeCasts_S8064_S1x8064 (ix2 (0 : Fin 1) (widen s)) (ix1 (widen s)) (by
    rw [Shape.rowMajor_val_one, Shape.rowMajor_val_two]
    show s.val = 0 * 8064 + s.val
    omega)]
  exact pad_apply_of_inside ![0] ![64] ![0] bias z pads_S8000_S8064_0640 h_S_ (ix1 (widen s)) (ix1 s) (fun a => by
    match a with
    | ⟨0, _⟩ => show s.val = 0 + s.val * (0 + 1); omega)

/-- The first 8000 columns of the output array are the padded product plus the bias. -/
theorem result_eq_gemmBias (c : Dev nD) :
    extractStridedSlice S8064x8000 ![0, 0] (product (V m c main_v1) (V m c main_v3) (V m c main_v5)) slices_S8064x8064_S8064x8000_0_0
      = gemmBias (paddedLeft m c) (paddedRight m c) (m ((c : Thread nD τ).loc main_arg2)) := by
  rw [V_main_v1 m c, V_main_v3 m c, V_main_v5 m c]
  funext i
  obtain ⟨r, s, rfl⟩ : ∃ (r : Fin 8064) (s : Fin 8000), i = ix2 r s := ⟨i 0, i 1, eq_ix2 i⟩
  rw [extractStridedSlice_apply ![0, 0] _ slices_S8064x8064_S8064x8000_0_0 (ix2 r s) (ix2 r (widen s)) (fun a => by
    match a with
    | ⟨0, _⟩ => show r.val = 0 + r.val; omega
    | ⟨1, _⟩ => show s.val = 0 + s.val; omega)]
  show (∑ k : Fin 128, paddedLeft m c (ix2 r k) * paddedRight m c (ix2 k (widen s)))
        + shapeCast S1x8064 (paddedBias m c) shapeCasts_S8064_S1x8064 (ix2 (0 : Fin 1) (widen s))
      = (∑ k : Fin 128, paddedLeft m c (ix2 r k) * paddedRight m c (ix2 k (widen s))) + m ((c : Thread nD τ).loc main_arg2) (ix1 s)
  rw [biasRow_kept]

/-- Every weakly fair execution of the kernel program terminates with its result at the padded product plus the bias,
    the arguments unchanged. -/
theorem run : θ_run defs (onTc (τ := τ) (main (F := Ideal))) ⟨m, fun _ => 0, ρ⟩ fun r => ∀ c : Dev nD,
      r.2.mem ((c.tc : Thread nD τ).loc main_v7) = gemmBias (paddedLeft m c) (paddedRight m c) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_eq_gemmBias m c), (h c).2⟩) (Array.run m ρ)

end Cert.KernelIdeal.KernelValue

end
-- ==== Proof.LibScatterFold.lean ====
/-
  A host scatter read at an index.

  `Host.scatter d f x idx upd` is a left fold over the update's indices in row-major order: each update index `j`
  whose result index `d.resultIdx? j idx` is `some k` replaces the element at `k` by `f` of that element and the
  update's at `j`; an update index with no result index inside the operand is dropped.  When no two update indices
  land on the same element, each element is touched at most once, so the fold's order plays no part:
  an element some update index lands on holds `f (x k) (upd j)`, every other element is the operand's.
-/
import Idealize.ShloMosaic.PureOps.ShapeOps

namespace Idealize.ShloMosaic.ScatterFold

section Fold

variable {ι κ α : Type} [DecidableEq κ] (ri : ι → Option κ) (f : α → α → α) (upd : ι → α)
  (step : (κ → α) → ι → (κ → α))

/-- An element no update of the list lands on is left as it was. -/
theorem foldl_miss
    (hsome : ∀ r n k, ri n = some k → step r n = fun i' => if i' = k then f (r k) (upd n) else r i')
    (hnone : ∀ r n, ri n = none → step r n = r) :
    ∀ (l : List ι) (x : κ → α) (i : κ), (∀ n ∈ l, ri n ≠ some i) → l.foldl step x i = x i := by
  intro l
  induction l with
  | nil => intro x i _; rfl
  | cons a l ih =>
    intro x i h
    rw [List.foldl_cons, ih (step x a) i (fun n hn => h n (List.mem_cons_of_mem _ hn))]
    cases hra : ri a with
    | none => rw [hnone x a hra]
    | some k =>
      rw [hsome x a k hra]
      have hik : i ≠ k := fun e => h a (List.mem_cons_self ..) (by rw [hra, e])
      exact if_neg hik

/-- An element exactly one update of a duplicate-free list lands on holds `f` of the operand's element and that update's. -/
theorem foldl_hit
    (hsome : ∀ r n k, ri n = some k → step r n = fun i' => if i' = k then f (r k) (upd n) else r i')
    (hnone : ∀ r n, ri n = none → step r n = r) :
    ∀ (l : List ι), l.Nodup → (∀ n ∈ l, ∀ n' ∈ l, ∀ k, ri n = some k → ri n' = some k → n = n') →
      ∀ (x : κ → α) (n : ι) (k : κ), n ∈ l → ri n = some k → l.foldl step x k = f (x k) (upd n) := by
  intro l
  induction l with
  | nil => intro _ _ x n k hn; exact absurd hn (List.not_mem_nil)
  | cons a l ih =>
    intro hnd hinj x n k hn hk
    rw [List.foldl_cons]
    have ha : a ∉ l := (List.nodup_cons.mp hnd).1
    have hl : l.Nodup := (List.nodup_cons.mp hnd).2
    rcases List.mem_cons.mp hn with rfl | hnl
    · rw [foldl_miss ri f upd step hsome hnone l (step x n) k (fun n' hn' hk' =>
        ha (by rw [hinj n (List.mem_cons_self ..) n' (List.mem_cons_of_mem _ hn') k hk hk']; exact hn'))]
      rw [hsome x n k hk]
      exact if_pos rfl
    · rw [ih hl (fun n₁ h₁ n₂ h₂ => hinj n₁ (List.mem_cons_of_mem _ h₁) n₂ (List.mem_cons_of_mem _ h₂)) (step x a) n k hnl hk]
      congr 1
      cases hra : ri a with
      | none => rw [hnone x a hra]
      | some k' =>
        rw [hsome x a k' hra]
        have hkk : k ≠ k' := fun e => ha (by
          rw [hinj a (List.mem_cons_self ..) n (List.mem_cons_of_mem _ hnl) k (by rw [hra, e]) hk]; exact hnl)
        exact if_neg hkk

end Fold

variable {s si u : Shape} {w : Nat} {α : Type}

/-- A scatter whose update indices land, all of them, inside the operand and on pairwise different elements (`g`, injective),
    read at the element update index `j` lands on: `f` of the operand's element there and the update's at `j`. -/
theorem scatter_apply_of_injective (d : ScatterDims s si u) (f : α → α → α) (x : s.Idx → α) (idx : IVec si w) (upd : u.Idx → α)
    (g : u.Idx → s.Idx) (hg : ∀ j, d.resultIdx? j idx = some (g j)) (hinj : Function.Injective g) (j : u.Idx) :
    Host.scatter d f x idx upd (g j) = f (x (g j)) (upd j) := by
  unfold Host.scatter
  have h := foldl_hit (fun n : Fin u.numel => d.resultIdx? (u.rowMajor.symm n) idx) f (fun n => upd (u.rowMajor.symm n))
    (fun r n =>
      match d.resultIdx? (u.rowMajor.symm n) idx with
      | some i => fun i' => if i' = i then f (r i) (upd (u.rowMajor.symm n)) else r i'
      | none => r)
    (fun r n k hk => by simp only [hk])
    (fun r n hk => by simp only [hk])
    (List.finRange u.numel) (List.nodup_finRange _)
    (fun n _ n' _ k hk hk' => by
      rw [hg] at hk hk'
      have e : g (u.rowMajor.symm n) = g (u.rowMajor.symm n') := Option.some.inj (hk.trans hk'.symm)
      exact u.rowMajor.symm.injective (hinj e))
    x (u.rowMajor j) (g j) (List.mem_finRange _) (by rw [Equiv.symm_apply_apply]; exact hg j)
  rw [Equiv.symm_apply_apply] at h
  exact h

end Idealize.ShloMosaic.ScatterFold
-- ==== Proof.RefValue.lean ====
/-
  The reference's result, index by index.

  The reference multiplies the zero-padded operands (one sum over the 128 padded contraction indices per entry), adds the
  bias by a scatter-add of the broadcast bias, an 8064 × 8000 window at column 0 of the 8064 × 8064 product, and keeps the
  first 8000 columns.  The window's start is the literal 0, so update entry (r, c) lands on product entry (r, c): all
  inside, no two on one entry; a kept entry therefore holds its product entry plus the bias of its column.
-/
import proofs.«100603_j60842506715778_1_alg».proof.Proof.Gen.ReferenceIdeal.Read
import proofs.«100603_j60842506715778_1_alg».proof.Proof.LibScatterFold
import proofs.«100603_j60842506715778_1_alg».proof.Proof.Spec

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.GemmBias

/-! ## Where an update entry lands -/

/-- The window starts at 0 on both axes: on the scattered axis the one index word is 0, the other axis is not scattered. -/
theorem start_eq (j : S8064x8000.Idx) (idx : IVec S1 32) (hidx : ∀ k, idx k = 0#32) (a : Fin S8064x8064.rank) :
    scatter_S8064x8064_S1_S8064x8000_01_n_1_0.start j idx a = 0 := by
  unfold ScatterDims.start
  split
  · rw [hidx]; rfl
  · rfl

/-- The window coordinate on each axis is the update entry's own. -/
theorem window_eq0 (j : S8064x8000.Idx) : scatter_S8064x8064_S1_S8064x8000_01_n_1_0.window j (0 : Fin 2) = (j 0).val := by
  unfold ScatterDims.window
  rw [dif_pos (by decide)]
  rfl
theorem window_eq1 (j : S8064x8000.Idx) : scatter_S8064x8064_S1_S8064x8000_01_n_1_0.window j (1 : Fin 2) = (j 1).val := by
  unfold ScatterDims.window
  rw [dif_pos (by decide)]
  rfl

/-- Update entry (r, c) lands on product entry (r, c), which is inside the product. -/
theorem resultIdx_eq (j : S8064x8000.Idx) (idx : IVec S1 32) (hidx : ∀ k, idx k = 0#32) :
    scatter_S8064x8064_S1_S8064x8000_01_n_1_0.resultIdx? j idx = some (idx_main_v6 j) := by
  have h0 : (j 0).val < 8064 := (j 0).isLt
  have h1 : (j 1).val < 8000 := (j 1).isLt
  have h : ∀ a, 0 ≤ scatter_S8064x8064_S1_S8064x8000_01_n_1_0.start j idx a + scatter_S8064x8064_S1_S8064x8000_01_n_1_0.window j a
      ∧ scatter_S8064x8064_S1_S8064x8000_01_n_1_0.start j idx a + scatter_S8064x8064_S1_S8064x8000_01_n_1_0.window j a < S8064x8064.size a := by
    intro a
    rw [start_eq j idx hidx a]
    match a with
    | ⟨0, _⟩ =>
      show 0 ≤ (0 : Int) + ((scatter_S8064x8064_S1_S8064x8000_01_n_1_0.window j (0 : Fin 2) : Nat) : Int)
        ∧ (0 : Int) + ((scatter_S8064x8064_S1_S8064x8000_01_n_1_0.window j (0 : Fin 2) : Nat) : Int) < ((8064 : Nat) : Int)
      rw [window_eq0]; omega
    | ⟨1, _⟩ =>
      show 0 ≤ (0 : Int) + ((scatter_S8064x8064_S1_S8064x8000_01_n_1_0.window j (1 : Fin 2) : Nat) : Int)
        ∧ (0 : Int) + ((scatter_S8064x8064_S1_S8064x8000_01_n_1_0.window j (1 : Fin 2) : Nat) : Int) < ((8064 : Nat) : Int)
      rw [window_eq1]; omega
  unfold ScatterDims.resultIdx?
  rw [dif_pos h]
  refine congrArg some (funext fun a => Fin.ext ?_)
  match a with
  | ⟨0, _⟩ =>
    show ((scatter_S8064x8064_S1_S8064x8000_01_n_1_0.start j idx (0 : Fin 2)) + ((scatter_S8064x8064_S1_S8064x8000_01_n_1_0.window j (0 : Fin 2) : Nat) : Int)).toNat = (j 0).val
    rw [start_eq j idx hidx, window_eq0]; omega
  | ⟨1, _⟩ =>
    show ((scatter_S8064x8064_S1_S8064x8000_01_n_1_0.start j idx (1 : Fin 2)) + ((scatter_S8064x8064_S1_S8064x8000_01_n_1_0.window j (1 : Fin 2) : Nat) : Int)).toNat = (j 1).val
    rw [start_eq j idx hidx, window_eq1]; omega

/-- Different update entries land on different product entries. -/
theorem idx_main_v6_injective : Function.Injective idx_main_v6 := by
  intro i i' h
  funext a
  match a with
  | ⟨0, _⟩ => exact Fin.ext (congrArg (fun k : S8064x8064.Idx => (k 0).val) h)
  | ⟨1, _⟩ => exact Fin.ext (congrArg (fun k : S8064x8064.Idx => (k 1).val) h)

/-- The scatter's one index word is 0. -/
theorem val_main_v3_zero (k : S1.Idx) : val_main_v3 (F := Ideal) k = 0#32 := by
  rw [val_main_v3_apply]; rfl

/-! ## The result -/

/-- The reference's result is the padded product plus the bias. -/
theorem val_main_v6_eq_gemmBias (x0 : (⟨S8000x120, .f32⟩ : BufTy).Contents (Elt Ideal)) (x1 : (⟨S120x8000, .f32⟩ : BufTy).Contents (Elt Ideal))
    (x2 : (⟨S8000, .f32⟩ : BufTy).Contents (Elt Ideal)) :
    val_main_v6 (F := Ideal) x0 x1 x2 = gemmBias (val_main_v0 (F := Ideal) x0) (val_main_v1 (F := Ideal) x1) x2 := by
  funext i
  rw [val_main_v6_apply]
  unfold val_main_v5
  rw [ScatterFold.scatter_apply_of_injective scatter_S8064x8064_S1_S8064x8000_01_n_1_0 FloatOps.addf _ _ _ idx_main_v6
    (fun j => resultIdx_eq j _ val_main_v3_zero) idx_main_v6_injective i, val_main_v2_apply, val_main_v4_apply]
  have el : ∀ k : Fin 128, lidx_main_v2 (idx_main_v6 i) k = ix2 (i 0) k := fun k => funext fun a => by
    match a with
    | ⟨0, _⟩ => rfl
    | ⟨1, _⟩ => rfl
  have er : ∀ k : Fin 128, ridx_main_v2 (idx_main_v6 i) k = ix2 k (widen (i 1)) := fun k => funext fun a => by
    match a with
    | ⟨0, _⟩ => rfl
    | ⟨1, _⟩ => rfl
  have eb : idx_main_v4 i = ix1 (i 1) := funext fun a => by
    match a with
    | ⟨0, _⟩ => rfl
  simp only [el, er, eb]
  rfl

end Cert.ReferenceIdeal.RefValue

end
-- ==== Proof.lean ====
/-
  A tiled matrix product with bias against one dense product, over the extended reals.

  The kernel program pads the 8000 × 120 left operand and the 120 × 8000 right operand with zeros to 8064 × 128 and
  128 × 8064, pads the bias with zeros to 8064 entries, and on a 4 × 7 grid computes each 2016 × 1152 block of the
  8064 × 8064 output as the product of a row block with a column block plus the bias row; it keeps the first 8000
  columns.  The reference pads the operands the same way, takes one product, adds the bias to the first 8000 columns by a
  scatter-add at column 0 and keeps those columns.

  Both results are, entry (r, c) with r < 8064 and c < 8000,

      ∑ k < 128, Ap (r, k) · Bp (k, c)  +  bias c

  with Ap, Bp the padded operands: the same sums in the same order, so no algebraic law beyond reading the two programs
  at an index is used, and the finiteness of the inputs plays no part.  The narrowing of the operands to a shorter float
  format is the identity on extended reals.
-/
import proofs.«100603_j60842506715778_1_alg».proof.Defs
import proofs.«100603_j60842506715778_1_alg».proof.Proof.Gen.Kernel
import proofs.«100603_j60842506715778_1_alg».proof.Proof.Gen.Kernel.Skeleton
import proofs.«100603_j60842506715778_1_alg».proof.Proof.Gen.Kernel.Launch
import proofs.«100603_j60842506715778_1_alg».proof.Proof.Gen.Kernel.Points
import proofs.«100603_j60842506715778_1_alg».proof.Proof.Gen.Kernel.Frame
import proofs.«100603_j60842506715778_1_alg».proof.Proof.Gen.KernelIdeal
import proofs.«100603_j60842506715778_1_alg».proof.Proof.Gen.KernelIdeal.Skeleton
import proofs.«100603_j60842506715778_1_alg».proof.Proof.Gen.KernelIdeal.Launch
import proofs.«100603_j60842506715778_1_alg».proof.Proof.Gen.KernelIdeal.Points
import proofs.«100603_j60842506715778_1_alg».proof.Proof.Gen.KernelIdeal.Frame
import proofs.«100603_j60842506715778_1_alg».proof.Proof.Gen.ReferenceIdeal
import proofs.«100603_j60842506715778_1_alg».proof.Proof.Gen.ReferenceIdeal.Run
import proofs.«100603_j60842506715778_1_alg».proof.Proof.Gen.ReferenceIdeal.Read
import proofs.«100603_j60842506715778_1_alg».proof.Proof.Gen.Pre_finite_inputs
import proofs.«100603_j60842506715778_1_alg».proof.Proof.KernelValue
import proofs.«100603_j60842506715778_1_alg».proof.Proof.RefValue
import Idealize.ShloMosaic.Adequacy
import Idealize.ShloMosaic.Init

noncomputable section

namespace Cert.Proof

open Idealize.ShloMosaic Idealize.SL.Sem

/-- The word-level kernel program terminates without a fault and leaves its arguments unchanged. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel program was rewritten for the reading over the extended reals. -/
theorem preserves : Cert.preserves_Kernel_KernelIdeal := trivial

/-- From memories that agree on the three arguments both programs end at the padded product plus the bias. -/
theorem algebraic : Cert.algebraic_KernelIdeal_ReferenceIdeal := by
  intro m ρ m' ρ' _ hagree
  refine ⟨fun c => Cert.GemmBias.gemmBias (Cert.KernelIdeal.Entry.paddedLeft m c) (Cert.KernelIdeal.Entry.paddedRight m c)
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.val_main_v6_eq_gemmBias,
    (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
